-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x2048 : Shape := ⟨2, ![512, 2048]⟩
abbrev S2048x512 : Shape := ⟨2, ![2048, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S8192x512 .f32) (main_arg1 : FVec F S512x2048 .f32) (main_arg2 : FVec F S2048x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  main_v13
-- ==== Kernel.lean ====
abbrev S8192x512 : Shape := ⟨2, ![8192, 512]⟩
abbrev S512x2048 : Shape := ⟨2, ![512, 2048]⟩
abbrev S2048x512 : Shape := ⟨2, ![2048, 512]⟩
abbrev S_ : Shape := ⟨0, ![]⟩
abbrev S2048 : Shape := ⟨1, ![2048]⟩
abbrev S1x2048 : Shape := ⟨2, ![1, 2048]⟩
abbrev S8192x2048 : Shape := ⟨2, ![8192, 2048]⟩
abbrev S512x512 : Shape := ⟨2, ![512, 512]⟩

abbrev nBuf : Space → Nat
  | .hbm => 17
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S2048x512, .f32⟩
  | .hbm, ⟨3, _⟩ => ⟨S512x2048, .f32⟩
  | .hbm, ⟨4, _⟩ => ⟨S512x2048, .f32⟩
  | .hbm, ⟨5, _⟩ => ⟨S_, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S2048, .f32⟩
  | .hbm, ⟨13, _⟩ => ⟨S512x2048, .bf16⟩
  | .hbm, ⟨14, _⟩ => ⟨S512x2048, .bf16⟩
  | .hbm, ⟨15, _⟩ => ⟨S1x2048, .f32⟩
  | .hbm, ⟨16, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S2048x512_S512x2048_1_0 : S2048x512.Transposes [1, 0] S512x2048
  bcast_S_S512x2048 : S_.BroadcastsInDim S512x2048 (![] : Fin 0 → Fin S512x2048.rank)
  reducesTo_S512x2048_S2048_d0 : S512x2048.ReducesTo [0] S2048
  h_S_ : 0 < S_.numel
  bitsLt_bf16_f32 : FTy.bits .bf16 < FTy.bits .f32
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x2048.size a
  hwx0_2 : ∀ i : grid0.Coords, EltTy.bits .bf16 = 32 ∨ (Rect.block (s := S512x2048) S512x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x2048 : Shape := ⟨2, ![512, 2048]⟩
abbrev S2048x512 : Shape := ⟨2, ![2048, 512]⟩
abbrev S8192x2048 : Shape := ⟨2, ![8192, 2048]⟩
abbrev S_ : Shape := ⟨0, ![]⟩
abbrev S2048 : Shape := ⟨1, ![2048]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .f32⟩
  | .hbm, ⟨2, _⟩ => ⟨S2048x512, .f32⟩
  | .hbm, ⟨3, _⟩ => ⟨S512x2048, .f32⟩
  | .hbm, ⟨4, _⟩ => ⟨S8192x512, .f32⟩
  | .hbm, ⟨5, _⟩ => ⟨S8192x2048, .f32⟩
  | .hbm, ⟨6, _⟩ => ⟨S512x2048, .f32⟩
  | .hbm, ⟨7, _⟩ => ⟨S512x2048, .f32⟩
  | .hbm, ⟨8, _⟩ => ⟨S8192x2048, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  transposes_S2048x512_S512x2048_1_0 : S2048x512.Transposes [1, 0] S512x2048
  transposes_S512x2048_S2048x512_1_0 : S512x2048.Transposes [1, 0] S2048x512
  reducesTo_S2048x512_S2048_d1 : S2048x512.ReducesTo [1] S2048
  h_S_ : 0 < S_.numel
  bcast_S_S8192x2048 : S_.BroadcastsInDim S8192x2048 (![] : Fin 0 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x512_S512x2048_S8192x2048_1_0_0_1_n_n_wf : DotDims.WF S8192x512 S512x2048 S8192x2048 [1] [0] [0] [1] [] []

variable [Facts₀]

def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf

class Facts : Prop extends Facts₀ where

variable [Facts]
-- ==== Proof.Spec.lean ====
/-
  The layer as ONE function of its three argument arrays, in the two arrangements the programs compute it in.

  With x : [8192, 512], w : [512, 2048] and cen : [2048, 512], entry (b, c) of the result is
      ∑ₖ w[k,c]² · (x[b,k] − cen[c,k])²,
  which both programs expand into three sums over k:
      quad  b c = ∑ₖ x[b,k]² · w[k,c]²
      cross b c = ∑ₖ x[b,k] · (w[k,c]² · cen[c,k])
      bias    c = 0 + ∑ₖ w[k,c]² · cen[c,k]²
  One arrangement folds the factor −2 into the second operand of the middle product before the sum over k is taken,
      (quad + ∑ₖ x[b,k] · ((−2 · w[k,c]²) · cen[c,k])) + bias,
  the other multiplies the finished sum by 2 and subtracts,
      (quad − 2 · cross) + bias.
  On the extended reals a factor moves across a sum only where nothing is infinite, so the two arrangements are
  shown equal for arrays whose entries are all real numbers (`scaledForm_eq_subtractedForm`): there every sum is
  the image of a real sum, and the identity is the real one  ∑ₖ u·((−2·v)·z) = −(2 · ∑ₖ u·(v·z)).
-/
import Idealize.ShloMosaic.PureOps.Ideal
import Idealize.ShloMosaic.Lib.ValueIdx

noncomputable section

open scoped BigOperators

namespace Cert.Rbf

open Idealize.ShloMosaic Idealize.ShloMosaic.ValueIdx

/-! ## The two literals: the words of 2.0 and of −2.0 denote the reals 2 and −2 -/

theorem ofBits_two : Ideal.ofBits .f32 0x40000000#32 = ((2 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul]; norm_num

/-! ## The three sums at an output entry (b, c) -/

abbrev XArr := (⟨2, ![8192, 512]⟩ : Shape).Idx → EReal
abbrev WArr := (⟨2, ![512, 2048]⟩ : Shape).Idx → EReal
abbrev CArr := (⟨2, ![2048, 512]⟩ : Shape).Idx → EReal
abbrev OArr := (⟨2, ![8192, 2048]⟩ : Shape).Idx → EReal

/-- ∑ₖ x[b,k]² · w[k,c]². -/
def quad (x : XArr) (w : WArr) (b : Fin 8192) (c : Fin 2048) : EReal :=
  ∑ k : Fin 512, (x (ix2 b k) * x (ix2 b k)) * (w (ix2 k c) * w (ix2 k c))

/-- ∑ₖ x[b,k] · (w[k,c]² · cen[c,k]). -/
def cross (x : XArr) (w : WArr) (cen : CArr) (b : Fin 8192) (c : Fin 2048) : EReal :=
  ∑ k : Fin 512, x (ix2 b k) * ((w (ix2 k c) * w (ix2 k c)) * cen (ix2 c k))

/-- ∑ₖ x[b,k] · ((s · w[k,c]²) · cen[c,k]): the middle sum with a scale `s` folded into its second factor. -/
def crossScaled (s : EReal) (x : XArr) (w : WArr) (cen : CArr) (b : Fin 8192) (c : Fin 2048) : EReal :=
  ∑ k : Fin 512, x (ix2 b k) * ((s * (w (ix2 k c) * w (ix2 k c))) * cen (ix2 c k))

/-- z + ∑ₖ w[k,c]² · cen[c,k]², the sum started from `z` (both programs start it from the word of 0.0). -/
def bias (z : EReal) (w : WArr) (cen : CArr) (c : Fin 2048) : EReal :=
  z + ∑ k : Fin 512, (w (ix2 k c) * w (ix2 k c)) * (cen (ix2 c k) * cen (ix2 c k))

/-- The arrangement with −2 folded into the middle product's second operand. -/
def scaledForm (x : XArr) (w : WArr) (cen : CArr) : OArr := fun j =>
  (quad x w (j 0) (j 1) + crossScaled (Ideal.ofBits .f32 0xC0000000#32) x w cen (j 0) (j 1))
    + bias (Ideal.ofBits .f32 0x00000000#32) w cen (j 1)

/-- The arrangement that subtracts twice the middle sum. -/
def subtractedForm (x : XArr) (w : WArr) (cen : CArr) : OArr := fun j =>
  (quad x w (j 0) (j 1) - Ideal.ofBits .f32 0x40000000#32 * cross x w cen (j 0) (j 1))
    + bias (Ideal.ofBits .f32 0x00000000#32) w cen (j 1)

/-! ## The law between them, over real entries -/

/-- A finite sum of reals, embedded, is the sum of the embedded terms. -/
theorem coe_sum {K : Type*} (s : Finset K) (f : K → ℝ) :
    ((∑ k ∈ s, f k : ℝ) : EReal) = ∑ k ∈ s, ((f k : ℝ) : EReal) := by
  classical
  refine Finset.induction_on s (by simp) ?_
  intro a s ha ih
  rw [Finset.sum_insert ha, Finset.sum_insert ha, EReal.coe_add, ih]

/-- Over real u, v, z:  A + ∑ₖ u·((−2·v)·z) = A − 2 · ∑ₖ u·(v·z), every term read in the extended reals. -/
theorem fold_scale {K : Type*} [Fintype K] (A : ℝ) (u v z : K → ℝ) :
    (A : EReal) + ∑ k, (u k : EReal) * ((((-2 : ℝ) : EReal) * (v k : EReal)) * (z k : EReal))
      = (A : EReal) - ((2 : ℝ) : EReal) * ∑ k, (u k : EReal) * ((v k : EReal) * (z k : EReal)) := by
  simp only [← EReal.coe_mul, ← coe_sum, ← EReal.coe_add, ← EReal.coe_sub]
  congr 1
  rw [Finset.mul_sum, sub_eq_add_neg, ← Finset.sum_neg_distrib]
  congr 1
  exact Finset.sum_congr rfl fun k _ => by ring

/-- Where every entry of the three arrays is a real number the two arrangements are one function. -/
theorem scaledForm_eq_subtractedForm (x : XArr) (w : WArr) (cen : CArr)
    (hx : ∀ i, ∃ r : ℝ, x i = (r : EReal)) (hw : ∀ i, ∃ r : ℝ, w i = (r : EReal))
    (hc : ∀ i, ∃ r : ℝ, cen i = (r : EReal)) :
    scaledForm x w cen = subtractedForm x w cen := by
  choose xr hxr using hx
  choose wr hwr using hw
  choose cr hcr using hc
  funext j
  unfold scaledForm subtractedForm
  refine congrArg (· + bias _ w cen (j 1)) ?_
  unfold quad crossScaled cross
  rw [ofBits_neg_two, ofBits_two]
  simp only [hxr, hwr, hcr]
  have hq : (∑ k : Fin 512, ((xr (ix2 (j 0) k) : EReal) * (xr (ix2 (j 0) k) : EReal))
        * ((wr (ix2 k (j 1)) : EReal) * (wr (ix2 k (j 1)) : EReal)))
      = ((∑ k : Fin 512, (xr (ix2 (j 0) k) * xr (ix2 (j 0) k)) * (wr (ix2 k (j 1)) * wr (ix2 k (j 1))) : ℝ) : EReal) := by
    rw [coe_sum]; simp only [EReal.coe_mul]
  rw [hq]
  simp only [← EReal.coe_mul]
  exact fold_scale _ (fun k => xr (ix2 (j 0) k)) (fun k => wr (ix2 k (j 1)) * wr (ix2 k (j 1))) (fun k => cr (ix2 (j 1) k))

end Cert.Rbf

end
-- ==== Proof.Finite.lean ====
/-
  From the precondition to real entries.

  The precondition says, of each of the three argument arrays, that every entry is below +∞ in absolute value, the
  three statements joined by "and". Over the extended reals |a| = max a (−a), and max a (−a) < ⊤ rules out both ⊤ and ⊥
  (for a = ⊥ the negation is ⊤), so each entry is the image of a real number.
-/
import proofs.«127047_j53300544143585_1_alg».proof.Pre_finite_inputs
import proofs.«127047_j53300544143585_1_alg».proof.Proof.Gen.Pre_finite_inputs
import Idealize.ShloMosaic.PureOps.Ideal
import Idealize.ShloMosaic.Lib.ReduceAll
import Idealize.ShloMosaic.Lib.ValueIdx

noncomputable section

namespace Cert.Rbf.Finite

open Idealize.ShloMosaic Cert.Pre_finite_inputs

instance : Subsingleton S_.Idx := ⟨fun a b => funext fun d => d.elim0⟩

/-- The word of +∞ denotes ⊤. -/
theorem ofBits_inf : Ideal.ofBits .f32 0x7F800000#32 = ⊤ := by simp [Ideal.ofBits, Ideal.ieee]

/-- An extended real whose absolute value compares below +∞ is a real number. -/
theorem real_of_abs_lt (a : EReal) (h : Ideal.cmp .olt (max a (-a)) (Ideal.ofBits .f32 0x7F800000#32) = 1#1) :
    ∃ r : ℝ, a = (r : EReal) := by
  rw [ofBits_inf] at h
  have h' : max a (-a) < ⊤ := by
    by_contra hn
    simp [Ideal.cmp, hn] at h
  induction a using EReal.rec with
  | bot => simp at h'
  | top => simp at h'
  | coe r => exact ⟨r, rfl⟩

/-- Under the precondition every entry of x, of w and of cen is a real number. -/
theorem real_entries (x : FVec Ideal S8192x512 .f32) (w : FVec Ideal S512x2048 .f32) (cen : FVec Ideal S2048x512 .f32)
    (h : Cert.Pre_finite_inputs.fn (F := Ideal) x w cen = fun _ => 1#1) :
    (∀ i, ∃ r : ℝ, x i = (r : EReal)) ∧ (∀ i, ∃ r : ℝ, w i = (r : EReal)) ∧ (∀ i, ∃ r : ℝ, cen i = (r : EReal)) := by
  have h0 := congrFun h ValueIdx.ix0
  dsimp only [Cert.Pre_finite_inputs.fn] at h0
  obtain ⟨hxw, hc⟩ := IntOp.andi_eq_one.1 h0
  obtain ⟨hx, hw⟩ := IntOp.andi_eq_one.1 hxw
  refine ⟨fun i => ?_, fun i => ?_, fun i => ?_⟩
  · exact real_of_abs_lt _ (Host.reduce_andi_all _ _ _ _ _ hx i)
  · exact real_of_abs_lt _ (Host.reduce_andi_all _ _ _ _ _ hw i)
  · exact real_of_abs_lt _ (Host.reduce_andi_all _ _ _ _ _ hc i)

end Cert.Rbf.Finite

end
-- ==== Proof.RefValue.lean ====
/-
  The reference program's result, entry by entry, is the arrangement that subtracts twice the middle sum.

  Its three products read at (b, c): the first contracts x² with w² over k; the second contracts x with
  w² · cenᵀ, where the transpose reads cen at (c, k); the row sum adds w²ᵀ · cen² along k, where the transpose reads
  w at (k, c). The two broadcasts carry the row sum from [2048] through [1, 2048] to every row b. What remains is to
  identify each composed index with the pair of coordinates it is.
-/
import proofs.«127047_j53300544143585_1_alg».proof.Proof.Gen.ReferenceIdeal.Read
import proofs.«127047_j53300544143585_1_alg».proof.Proof.Spec

noncomputable section

open scoped BigOperators

namespace Cert.Rbf.Reference

open Cert.ReferenceIdeal Cert.ReferenceIdeal.Gen Cert.ReferenceIdeal.Read
open Idealize.ShloMosaic Idealize.ShloMosaic.ValueIdx Cert.Rbf

/-! ## The composed indices, as coordinates -/

theorem lhs_quad (j : S8192x2048.Idx) (k : Fin 512) : lidx_main_v2 j k = (ix2 (j 0) k : S8192x512.Idx) :=
  funext fun a => Fin.ext (by match a with | ⟨0, _⟩ => rfl | ⟨1, _⟩ => rfl)
theorem rhs_quad (j : S8192x2048.Idx) (k : Fin 512) : ridx_main_v2 j k = (ix2 k (j 1) : S512x2048.Idx) :=
  funext fun a => Fin.ext (by match a with | ⟨0, _⟩ => rfl | ⟨1, _⟩ => rfl)
theorem lhs_cross (j : S8192x2048.Idx) (k : Fin 512) : lidx_main_v5 j k = (ix2 (j 0) k : S8192x512.Idx) :=
  funext fun a => Fin.ext (by match a with | ⟨0, _⟩ => rfl | ⟨1, _⟩ => rfl)
theorem rhs_cross (j : S8192x2048.Idx) (k : Fin 512) : ridx_main_v5 j k = (ix2 k (j 1) : S512x2048.Idx) :=
  funext fun a => Fin.ext (by match a with | ⟨0, _⟩ => rfl | ⟨1, _⟩ => rfl)
/-- The transposed centres under the middle product: entry (k, c) of cenᵀ is cen (c, k). -/
theorem cen_cross (j : S8192x2048.Idx) (k : Fin 512) : idx_main_v3 (ix2 k (j 1) : S512x2048.Idx) = (ix2 (j 1) k : S2048x512.Idx) :=
  funext fun a => Fin.ext (by match a with | ⟨0, _⟩ => rfl | ⟨1, _⟩ => rfl)
/-- The row sum's operand index at output entry j and summation coordinate k is (c, k) … -/
theorem cen_bias (j : S8192x2048.Idx) (k : Fin 512) :
    idx_main_v9 (idx_main_v13 (idx_main_v14 j)) k = (ix2 (j 1) k : S2048x512.Idx) :=
  funext fun a => Fin.ext (by match a with | ⟨0, _⟩ => rfl | ⟨1, _⟩ => rfl)
/-- … and the transposed squared weights there read w at (k, c). -/
theorem w_bias (j : S8192x2048.Idx) (k : Fin 512) : idx_main_v6 (ix2 (j 1) k : S2048x512.Idx) = (ix2 k (j 1) : S512x2048.Idx) :=
  funext fun a => Fin.ext (by match a with | ⟨0, _⟩ => rfl | ⟨1, _⟩ => rfl)

/-! ## The result -/

theorem result_eq (x : (⟨S8192x512, .f32⟩ : BufTy).Contents (Elt Ideal)) (w : (⟨S512x2048, .f32⟩ : BufTy).Contents (Elt Ideal))
    (cen : (⟨S2048x512, .f32⟩ : BufTy).Contents (Elt Ideal)) :
    val_main_v15 (F := Ideal) x w cen = subtractedForm x w cen := by
  funext j
  rw [val_main_v15_apply, val_main_v12_apply, val_main_v2_apply, val_main_v11_apply, val_main_v10_apply,
    val_main_cst_0_apply, val_main_v5_apply, val_main_v14_apply, val_main_v13_apply, val_main_v9_apply,
    val_main_cst_apply]
  simp only [lhs_quad, rhs_quad, lhs_cross, rhs_cross, cen_bias, val_main_v1_apply, val_main_v0_apply,
    val_main_v4_apply, val_main_v3_apply, val_main_v8_apply, val_main_v6_apply, val_main_v7_apply, cen_cross, w_bias,
    Ideal.mulf_def, Ideal.addf_def, Ideal.subf_def, Ideal.ofBits_def]
  rfl

end Cert.Rbf.Reference

end
-- ==== Proof.KernelArrays.lean ====
/-
  The three arrays the host stretch hands to the kernel region, as functions of the arguments, and each read at an
  index.

  Before the region @main computes, from w : [512, 2048] and cen : [2048, 512],
      sq    = w²                          (entry (k, c): w[k,c]²)
      cw    = (−2 · w²) · cenᵀ            (entry (k, c): (−2 · w[k,c]²) · cen[c,k])
      brow  = the column sums of w² · (cenᵀ)² started from 0, reshaped from [2048] to [1, 2048]
                                          (entry (0, c): 0 + ∑ₖ w[k,c]² · cen[c,k]²)
  and narrows sq and cw to a shorter float format, which over the extended reals changes nothing. The region finds
  them in the buffers its second, third and fourth windows stage.
-/
import proofs.«127047_j53300544143585_1_alg».proof.Proof.Gen.KernelIdeal.Frame
import proofs.«127047_j53300544143585_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx Cert.Rbf

/-! ## The arrays -/

/-- w², narrowed. -/
def sqArr (W : FVec Ideal S512x2048 .f32) : FVec Ideal S512x2048 .bf16 :=
  truncf .bf16 (mulf W W) bitsLt_bf16_f32

/-- (−2 · w²) · cenᵀ, narrowed. -/
def cwArr (W : FVec Ideal S512x2048 .f32) (C : FVec Ideal S2048x512 .f32) : FVec Ideal S512x2048 .bf16 :=
  truncf .bf16 (mulf (mulf (broadcastInDim S512x2048 ![] bcast_S_S512x2048 (constant (F := Ideal) S_ .f32 0xC0000000#32)) (mulf W W))
    (transpose S512x2048 [1, 0] C transposes_S2048x512_S512x2048_1_0)) bitsLt_bf16_f32

/-- The column sums of w² · (cenᵀ)², as one row. -/
def browArr (W : FVec Ideal S512x2048 .f32) (C : FVec Ideal S2048x512 .f32) : FVec Ideal S1x2048 .f32 :=
  shapeCast S1x2048 (Host.reduceAdd (mulf (mulf W W) (mulf (transpose S512x2048 [1, 0] C transposes_S2048x512_S512x2048_1_0)
      (transpose S512x2048 [1, 0] C transposes_S2048x512_S512x2048_1_0)))
    (constant (F := Ideal) S_ .f32 0x00000000#32) reducesTo_S512x2048_S2048_d0 h_S_) shapeCasts_S2048_S1x2048

/-! ## The region finds them in the staged buffers -/

variable (m : (ℓ : Loc nD τ sig) → Buf (Elt Ideal) ℓ)

theorem V_sq (c : Dev nD) : (V m c main_v8 : S512x2048.Idx → EReal) = sqArr (m ((c : Thread nD τ).loc main_arg1)) := by
  dsimp only [Gen.V, Gen.hostOps0]; after_results; rfl

theorem V_cw (c : Dev nD) : (V m c main_v9 : S512x2048.Idx → EReal)
    = cwArr (m ((c : Thread nD τ).loc main_arg1)) (m ((c : Thread nD τ).loc main_arg2)) := by
  dsimp only [Gen.V, Gen.hostOps0]; after_results; rfl

theorem V_brow (c : Dev nD) : (V m c main_v10 : S1x2048.Idx → EReal)
    = browArr (m ((c : Thread nD τ).loc main_arg1)) (m ((c : Thread nD τ).loc main_arg2)) := by
  dsimp only [Gen.V, Gen.hostOps0]; after_results; rfl

/-! ## Each at an index -/

theorem sqArr_apply (W : FVec Ideal S512x2048 .f32) (k : Fin 512) (q : Fin 2048) :
    sqArr W (ix2 k q) = W (ix2 k q) * W (ix2 k q) := rfl

/-- The transposed centres at (k, c) are cen at (c, k). -/
theorem cenT_apply (C : FVec Ideal S2048x512 .f32) (k : Fin 512) (q : Fin 2048) :
    transpose S512x2048 [1, 0] C transposes_S2048x512_S512x2048_1_0 (ix2 k q) = C (ix2 q k) :=
  transpose_apply [1, 0] C transposes_S2048x512_S512x2048_1_0 (ix2 k q) (ix2 q k) (fun b => match b with
    | ⟨0, _⟩ => rfl
    | ⟨1, _⟩ => rfl)

theorem cwArr_apply (W : FVec Ideal S512x2048 .f32) (C : FVec Ideal S2048x512 .f32) (k : Fin 512) (q : Fin 2048) :
    cwArr W C (ix2 k q) = (Ideal.ofBits .f32 0xC0000000#32 * (W (ix2 k q) * W (ix2 k q))) * C (ix2 q k) := by
  unfold cwArr
  rw [truncf_apply, mulf_apply, mulf_apply, mulf_apply, cenT_apply,
    broadcastInDim_apply _ bcast_S_S512x2048 _ (ix2 k q) ix0 (fun a => a.elim0)]
  rfl

theorem browArr_apply (W : FVec Ideal S512x2048 .f32) (C : FVec Ideal S2048x512 .f32) (z : Fin 1) (q : Fin 2048) :
    browArr W C (ix2 z q) = bias (Ideal.ofBits .f32 0x00000000#32) W C q := by
  unfold browArr bias
  rw [shapeCast_apply _ shapeCasts_S2048_S1x2048 (ix2 z q) (ix1 q) (by
    rw [Shape.rowMajor_val_one, Shape.rowMajor_val_two]
    show q.val = z.val * 2048 + q.val
    have := z.isLt; omega)]
  have hterm : ∀ k : Fin 512,
      (mulf (mulf W W) (mulf (transpose S512x2048 [1, 0] C transposes_S2048x512_S512x2048_1_0)
        (transpose S512x2048 [1, 0] C transposes_S2048x512_S512x2048_1_0))) (ix2 k q)
      = W (ix2 k q) * W (ix2 k q) * (C (ix2 q k) * C (ix2 q k)) := fun k => by
    rw [mulf_apply, mulf_apply, mulf_apply, cenT_apply]
  generalize mulf (mulf W W) (mulf (transpose S512x2048 [1, 0] C transposes_S2048x512_S512x2048_1_0)
        (transpose S512x2048 [1, 0] C transposes_S2048x512_S512x2048_1_0)) = y0 at hterm ⊢
  simp only [Host.reduceAdd, Ideal.hostReduceAdd_def]
  rw [Ideal.hostReduceAdd_single reducesTo_S512x2048_S2048_d0 (by decide)]
  refine congrArg (_ + ·) (Finset.sum_congr rfl fun k _ => ?_)
  rw [← hterm k]
  exact congrArg y0 (funext fun a => Fin.ext (by match a with | ⟨0, _⟩ => rfl | ⟨1, _⟩ => rfl))

end Cert.KernelIdeal.Hand

end
-- ==== Proof.Payload.lean ====
/-
  What the kernel body stores, read at an entry of its [512, 2048] block.

  From a block x0 : [512, 512] of x and whole arrays x1, x2 : [512, 2048] and x3 : [1, 2048] the body stores
      (x0² · x1 + x0 · x2) + (x3 broadcast down the rows),
  the two matrix products accumulated from zero. At (p, q) that is
      (∑ₖ x0[p,k]² · x1[k,q] + ∑ₖ x0[p,k] · x2[k,q]) + x3[0,q]:
  a narrowing of the float format is the identity on extended reals, a cast to the same shape is the identity, and a
  matrix product into zero is the plain sum over the contracted coordinate.
-/
import proofs.«127047_j53300544143585_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The product's operand indices at an output entry and a contracted coordinate -/

theorem lhs_row (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_contr (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_contr (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_col (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- A [512, 512] × [512, 2048] product accumulated from zero, at entry i, is ∑ₖ l[i₀,k] · r[k,i₁]. -/
theorem matmul_zero_apply (l : FVec Ideal S512x512 .bf16) (r : FVec Ideal S512x2048 .bf16) (i : S512x2048.Idx) :
    matmul dot_S512x512_S512x2048_S512x2048_1_0_0_1_n_n none l r (constant S512x2048 .f32 0x00000000#32) i
      = ∑ k : Fin 512, l (ix2 (i 0) k) * r (ix2 k (i 1)) := by
  simp only [matmul]
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx i ((ValueIdx.contrEquiv1 dot_S512x512_S512x2048_S512x2048_1_0_0_1_n_n 512 rfl rfl).symm k) = (ix2 (i 0) k : S512x512.Idx) := funext fun a => Fin.ext (by
    match a with
    | ⟨0, _⟩ => exact lhs_row _ _
    | ⟨1, _⟩ => exact (lhs_contr _ _).trans hk)
  have er : dot_S512x512_S512x2048_S512x2048_1_0_0_1_n_n.rhsIdx i ((ValueIdx.contrEquiv1 dot_S512x512_S512x2048_S512x2048_1_0_0_1_n_n 512 rfl rfl).symm k) = (ix2 k (i 1) : S512x2048.Idx) := funext fun a => Fin.ext (by
    match a with
    | ⟨0, _⟩ => exact (rhs_contr _ _).trans hk
    | ⟨1, _⟩ => exact rhs_col _ _)
  rw [el, er]

/-! ## The stored value at an entry -/

theorem stored_apply (x0 : FVec Ideal S512x512 .f32) (x1 x2 : FVec Ideal S512x2048 .bf16) (x3 : FVec Ideal S1x2048 .f32)
    (y : S512x2048.Idx) :
    k0_pay1 x0 x1 x2 x3 y
      = ((∑ k : Fin 512, (x0 (ix2 (y 0) k) * x0 (ix2 (y 0) k)) * x1 (ix2 k (y 1)))
          + ∑ k : Fin 512, x0 (ix2 (y 0) k) * x2 (ix2 k (y 1)))
        + x3 (ix2 (0 : Fin 1) (y 1)) := by
  show addf (addf
      (matmul dot_S512x512_S512x2048_S512x2048_1_0_0_1_n_n none (truncf .bf16 (mulf x0 x0) bitsLt_bf16_f32) (shapeCast S512x2048 x1 shapeCasts_S512x2048_S512x2048) (constant S512x2048 .f32 0x00000000#32))
      (matmul dot_S512x512_S512x2048_S512x2048_1_0_0_1_n_n none (truncf .bf16 x0 bitsLt_bf16_f32) (shapeCast S512x2048 x2 shapeCasts_S512x2048_S512x2048) (constant S512x2048 .f32 0x00000000#32)))
    (broadcastTo S512x2048 (shapeCast S1x2048 x3 shapeCasts_S1x2048_S1x2048) broadcasts_S1x2048_S512x2048) y = _
  rw [shapeCast_self, shapeCast_self, shapeCast_self, addf_apply, addf_apply, matmul_zero_apply, matmul_zero_apply,
    broadcastTo_apply x3 broadcasts_S1x2048_S512x2048 y (ix2 (0 : Fin 1) (y 1)) (fun a => match a with
      | ⟨0, _⟩ => by show (0 : Nat) = if (1 : Nat) = 1 then 0 else _; rw [if_pos rfl]
      | ⟨1, _⟩ => by show (y 1).val = if (2048 : Nat) = 1 then 0 else _; rw [if_neg (by decide)]; rfl)]
  rfl

end Cert.KernelIdeal.Hand

end
-- ==== Proof.KernelValue.lean ====
/-
  The kernel's result array is the arrangement with −2 folded into the middle product.

  The grid has 16 points. At point t the first window stages rows 512·t … 512·t + 511 of x, the next three stage the
  whole of w², of (−2 · w²) · cenᵀ and of the row of column sums, and the output window writes back rows
  512·t … 512·t + 511 of the result. So entry (p, q) of what point t writes back is the stored value at (p, q) of those
  blocks, which is the three sums of the specification at row 512·t + p and column q. The 16 row bands cover the array
  (row r lies in band r / 512), hence the array after the run is the specification's function, entry by entry.
-/
import proofs.«127047_j53300544143585_1_alg».proof.Proof.Gen.KernelIdeal.Value
import proofs.«127047_j53300544143585_1_alg».proof.Proof.KernelArrays
import proofs.«127047_j53300544143585_1_alg».proof.Proof.Payload
import Idealize.ShloMosaic.Lib.Pipeline.Value
import Idealize.ShloMosaic.Lib.Tactic

noncomputable section

open scoped BigOperators

namespace Cert.KernelIdeal.Hand

open Cert.KernelIdeal Cert.KernelIdeal.Gen Cert.KernelIdeal.Value
open Idealize.ShloMosaic Idealize.ShloMosaic.TcCoe Idealize.SL.Sem Idealize.ShloMosaic.ValueIdx Cert.Rbf
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The block index of every window at every grid point: the first window and the output move down one row band per
    point, the three whole-array windows stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The three arguments as launched, by their literal types. -/
abbrev xarr (c : Dev nD) : FVec Ideal S8192x512 .f32 := m ((c : Thread nD τ).loc main_arg0)
abbrev warr (c : Dev nD) : FVec Ideal S512x2048 .f32 := m ((c : Thread nD τ).loc main_arg1)
abbrev carr (c : Dev nD) : FVec Ideal S2048x512 .f32 := m ((c : Thread nD τ).loc main_arg2)

/-- The specification's function of the three arguments as launched. -/
abbrev result (c : Dev nD) : S8192x2048.Idx → EReal :=
  scaledForm (xarr m c) (warr m c) (carr m c)

/-! ## The four staged blocks at a point, by their literal types -/

abbrev xblk (c : Dev nD) (t : Fin cfg0.N) : FVec Ideal S512x512 .f32 := iblk m c 0 t
abbrev sqblk (c : Dev nD) (t : Fin cfg0.N) : FVec Ideal S512x2048 .bf16 := iblk m c 1 t
abbrev cwblk (c : Dev nD) (t : Fin cfg0.N) : FVec Ideal S512x2048 .bf16 := iblk m c 2 t
abbrev browblk (c : Dev nD) (t : Fin cfg0.N) : FVec Ideal S1x2048 .f32 := iblk m c 3 t

/-- Entry (p, k) of the block of x at point t is x at row 512·t + p. -/
theorem xblk_apply (c : Dev nD) (t : Fin cfg0.N) (p k : Fin 512) (b : Fin 8192) (hb : b.val = 512 * t.val + p.val) :
    xblk m c t (ix2 p k) = xarr m c (ix2 b k) := by
  obtain ⟨e0, e1, -⟩ := block_indices t
  show iblk m c 0 t (ix2 p k) = _
  unfold iblk
  rw [View.read_apply]
  show V m c main_arg0 _ = _
  rw [V_main_arg0]
  show xarr m c _ = _
  congr 1
  funext a
  apply Fin.ext
  match a with
  | ⟨0, _⟩ => show win0_0.index t (0 : Fin 2) * 512 + 1 * p.val = b.val; omega
  | ⟨1, _⟩ => show win0_0.index t (1 : Fin 2) * 512 + 1 * k.val = k.val; omega

/-- The second window stages all of w². -/
theorem sqblk_apply (c : Dev nD) (t : Fin cfg0.N) (k : Fin 512) (q : Fin 2048) :
    sqblk m c t (ix2 k q) = warr m c (ix2 k q) * warr m c (ix2 k q) := by
  obtain ⟨-, -, e0, e1, -⟩ := block_indices t
  show iblk m c 1 t (ix2 k q) = _
  unfold iblk
  rw [View.read_apply]
  show (V m c main_v8 : S512x2048.Idx → EReal) _ = _
  rw [V_sq]
  show sqArr (warr m c) _ = _
  rw [← sqArr_apply]
  congr 1
  funext a
  apply Fin.ext
  match a with
  | ⟨0, _⟩ => show win0_1.index t (0 : Fin 2) * 512 + 1 * k.val = k.val; omega
  | ⟨1, _⟩ => show win0_1.index t (1 : Fin 2) * 2048 + 1 * q.val = q.val; omega

/-- The third window stages all of (−2 · w²) · cenᵀ. -/
theorem cwblk_apply (c : Dev nD) (t : Fin cfg0.N) (k : Fin 512) (q : Fin 2048) :
    cwblk m c t (ix2 k q) = (Ideal.ofBits .f32 0xC0000000#32 * (warr m c (ix2 k q) * warr m c (ix2 k q)))
      * carr m c (ix2 q k) := by
  obtain ⟨-, -, -, -, e0, e1, -⟩ := block_indices t
  show iblk m c 2 t (ix2 k q) = _
  unfold iblk
  rw [View.read_apply]
  show (V m c main_v9 : S512x2048.Idx → EReal) _ = _
  rw [V_cw]
  show cwArr (warr m c) (carr m c) _ = _
  rw [← cwArr_apply]
  congr 1
  funext a
  apply Fin.ext
  match a with
  | ⟨0, _⟩ => show win0_2.index t (0 : Fin 2) * 512 + 1 * k.val = k.val; omega
  | ⟨1, _⟩ => show win0_2.index t (1 : Fin 2) * 2048 + 1 * q.val = q.val; omega

/-- The fourth window stages the row of column sums. -/
theorem browblk_apply (c : Dev nD) (t : Fin cfg0.N) (z : Fin 1) (q : Fin 2048) :
    browblk m c t (ix2 z q) = bias (Ideal.ofBits .f32 0x00000000#32) (warr m c) (carr m c) q := by
  obtain ⟨-, -, -, -, -, -, e0, e1, -⟩ := block_indices t
  show iblk m c 3 t (ix2 z q) = _
  unfold iblk
  rw [View.read_apply]
  show (V m c main_v10 : S1x2048.Idx → EReal) _ = _
  rw [V_brow]
  show browArr (warr m c) (carr m c) _ = _
  rw [← browArr_apply _ _ z q]
  congr 1
  funext a
  apply Fin.ext
  match a with
  | ⟨0, _⟩ => show win0_3.index t (0 : Fin 2) * 1 + 1 * z.val = z.val; omega
  | ⟨1, _⟩ => show win0_3.index t (1 : Fin 2) * 2048 + 1 * q.val = q.val; omega

/-! ## What a point writes back -/

/-- The stored value at (p, q) of the blocks at point t is the specification at (512·t + p, q). -/
theorem stored_coords (c : Dev nD) (t : Fin cfg0.N) (p : Fin 512) (q : Fin 2048) (b : Fin 8192)
    (hb : b.val = 512 * t.val + p.val) :
    k0_pay1 (F := Ideal) (xblk m c t) (sqblk m c t) (cwblk m c t) (browblk m c t) (ix2 p q) = result m c (ix2 b q) := by
  rw [stored_apply]
  show ((∑ k : Fin 512, (xblk m c t (ix2 p k) * xblk m c t (ix2 p k)) * sqblk m c t (ix2 k q))
      + ∑ k : Fin 512, xblk m c t (ix2 p k) * cwblk m c t (ix2 k q)) + browblk m c t (ix2 (0 : Fin 1) q) = _
  simp only [xblk_apply m c t p _ b hb, sqblk_apply, cwblk_apply, browblk_apply]
  rfl

/-- The same with the two entries given as indices whose coordinates are so related. -/
theorem stored_eq (c : Dev nD) (t : Fin cfg0.N) (y : S512x2048.Idx) (j : S8192x2048.Idx)
    (h0 : (j 0).val = 512 * t.val + (y 0).val) (h1 : (j 1).val = (y 1).val) :
    k0_pay1 (F := Ideal) (xblk m c t) (sqblk m c t) (cwblk m c t) (browblk m c t) y = result m c j := by
  obtain ⟨p, q, rfl⟩ : ∃ (p : Fin 512) (q : Fin 2048), y = ix2 p q := ⟨y 0, y 1, eq_ix2 y⟩
  obtain ⟨b, q', rfl⟩ : ∃ (b : Fin 8192) (q' : Fin 2048), j = ix2 b q' := ⟨j 0, j 1, eq_ix2 j⟩
  obtain rfl : q' = q := Fin.ext h1
  exact stored_coords m c t p q' b h0

/-- WHAT POINT t WRITES BACK is band t of the specification's function. -/
theorem flushed_eq (c : Dev nD) (t : Fin cfg0.N) :
    (dats m 0 c).flushed 4 t = ((cfg0.win 4).blk t).view.read (Elt Ideal) (result m c) := by
  obtain ⟨-, -, -, -, -, -, -, -, e0, e1⟩ := block_indices t
  rw [flushed4]
  unfold out0_4
  rw [View.canon_unit_zero offsets_zero]
  simp only [View.ld_unit_zero (S := S512x512) offsets_zero, View.ld_unit_zero (S := S512x2048) offsets_zero,
    View.ld_unit_zero (S := S1x2048) offsets_zero]
  funext y
  show k0_pay1 (F := Ideal) (xblk m c t) (sqblk m c t) (cwblk m c t) (browblk m c t) y = result m c (((cfg0.win 4).blk t).view.emb y)
  refine stored_eq m c t y _ ?_ ?_
  · show win0_4.index t (0 : Fin 2) * 512 + 1 * (y 0).val = _; omega
  · show win0_4.index t (1 : Fin 2) * 2048 + 1 * (y 1).val = _; omega

/-! ## The bands cover the array -/

theorem mem_band (t : Fin cfg0.N) (i : S8192x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v11).slice (win0_4.rect t)).set ↔ _
  rw [View.set_slice_whole, Rect.mem_set_unit]
  exact Iff.rfl

theorem bands_cover (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ : ∃ t : Fin cfg0.N, t.val = (i 0).val / 512 :=
    ⟨⟨(i 0).val / 512, by rw [show cfg0.N = 16 from N_0]; omega⟩, rfl⟩
  obtain ⟨-, -, -, -, -, -, -, -, e0, e1⟩ := block_indices t
  refine ⟨t, flush0_4 t, ?_⟩
  rw [mem_band]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- THE ARRAY after the run is the specification's function of the arguments. -/
theorem final (c : Dev nD) : (dats m 0 c).arrAt 4 cfg0.N = result m c :=
  (dats m 0 c).arrAt_eq_of_cover 4 (result m c) (fun t _ => flushed_eq m c t) bands_cover

/-- The run, read: the result array at the specification's function, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.KernelIdeal.Hand

end
-- ==== Proof.lean ====
/- The proof of `Cert.Claim`.

   The layer: with x : [8192, 512], w : [512, 2048] and cen : [2048, 512], entry (b, c) of the result is
   ∑ₖ w[k,c]² · (x[b,k] − cen[c,k])², expanded into ∑ₖ x² w² − 2 ∑ₖ x · (w² cen) + ∑ₖ w² cen².

   The kernel folds the factor −2 into the second operand of the middle matrix product before the sum over k and adds
   the three terms; the reference multiplies the finished middle sum by 2 and subtracts. Proof/Spec.lean states both
   arrangements and shows them equal where every entry is a real number, which is what the precondition gives
   (Proof/Finite.lean): on the extended reals a factor crosses a sum only where nothing is infinite. Proof/RefValue.lean
   reads the reference's run entry by entry as the subtracting arrangement; Proof/KernelArrays.lean, Proof/Payload.lean and
   Proof/KernelValue.lean read the kernel's run as the folding one: the arrays the host stretch prepares, the stored value
   at an entry, the sixteen row bands that cover the result. The three frames are the programs' runs with the value
   dropped; the kernel's idealization rewrote nothing, so `preserves` has nothing to state. -/
import proofs.«127047_j53300544143585_1_alg».proof.Defs
import proofs.«127047_j53300544143585_1_alg».proof.Proof.Gen.Kernel
import proofs.«127047_j53300544143585_1_alg».proof.Proof.Gen.Kernel.Skeleton
import proofs.«127047_j53300544143585_1_alg».proof.Proof.Gen.Kernel.Launch
import proofs.«127047_j53300544143585_1_alg».proof.Proof.Gen.Kernel.Points
import proofs.«127047_j53300544143585_1_alg».proof.Proof.Gen.Kernel.Frame
import proofs.«127047_j53300544143585_1_alg».proof.Proof.Gen.KernelIdeal
import proofs.«127047_j53300544143585_1_alg».proof.Proof.Gen.KernelIdeal.Skeleton
import proofs.«127047_j53300544143585_1_alg».proof.Proof.Gen.KernelIdeal.Launch
import proofs.«127047_j53300544143585_1_alg».proof.Proof.Gen.KernelIdeal.Points
import proofs.«127047_j53300544143585_1_alg».proof.Proof.Gen.KernelIdeal.Frame
import proofs.«127047_j53300544143585_1_alg».proof.Proof.Gen.ReferenceIdeal
import proofs.«127047_j53300544143585_1_alg».proof.Proof.Gen.Pre_finite_inputs
import proofs.«127047_j53300544143585_1_alg».proof.Proof.Gen.KernelIdeal.Value
import proofs.«127047_j53300544143585_1_alg».proof.Proof.Gen.ReferenceIdeal.Run
import proofs.«127047_j53300544143585_1_alg».proof.Proof.Gen.ReferenceIdeal.Read
import proofs.«127047_j53300544143585_1_alg».proof.Proof.Spec
import proofs.«127047_j53300544143585_1_alg».proof.Proof.Finite
import proofs.«127047_j53300544143585_1_alg».proof.Proof.RefValue
import proofs.«127047_j53300544143585_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at one function of the arguments: the kernel's run gives the arrangement
    with −2 folded in, the reference's the subtracting one, and on real entries — the precondition — they agree. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v15_eq _ _ _).trans ?_
  rw [Cert.Rbf.Reference.result_eq, (hagree c).1, (hagree c).2.1, (hagree c).2.2]
  obtain ⟨hx, hw, hc⟩ := Cert.Rbf.Finite.real_entries _ _ _ (hpre c)
  exact (Cert.Rbf.scaledForm_eq_subtractedForm _ _ _ hx hw hc).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
